-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S8x8192 : Shape := ⟨2, ![8, 8192]⟩
abbrev S8192x2048 : Shape := ⟨2, ![8192, 2048]⟩
abbrev S8192 : Shape := ⟨1, ![8192]⟩
abbrev S8 : Shape := ⟨1, ![8]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : IVec S8x8192x1024 32) (main_arg1 : FVec F S8x8192 .f32) (main_arg2 : FVec F S8x8192 .f32) (main_arg3 : FVec F S8192x2048 .f32) (main_arg4 : IVec S8192 32) (main_arg5 : IVec S8 32) (main_arg6 : IVec S8 32) : IVec S_ 1 :=
  let main_v0 : FVec F S8x8192 .f32 := Host.absf main_arg1
  let main_cst : FVec F S_ .f32 := constant S_ .f32 0x7F800000#32
  let main_v1 : FVec F S8x8192 .f32 := broadcastInDim S8x8192 ![] bcast_S_S8x8192 main_cst
  let main_v2 : IVec S8x8192 1 := cmpf .olt main_v0 main_v1
  let main_c : IVec S_ 1 := constantI S_ 1 1#1
  let main_v3 : IVec S_ 1 := (fun x v => Host.reduce IntOp.andi x v reducesTo_S8x8192_S_d0_1 h_S_) main_v2 main_c
  let main_v4 : FVec F S8x8192 .f32 := Host.absf main_arg2
  let main_cst_0 : FVec F S_ .f32 := constant S_ .f32 0x7F800000#32
  let main_v5 : FVec F S8x8192 .f32 := broadcastInDim S8x8192 ![] bcast_S_S8x8192 main_cst_0
  let main_v6 : IVec S8x8192 1 := cmpf .olt main_v4 main_v5
  let main_c_1 : IVec S_ 1 := constantI S_ 1 1#1
  let main_v7 : IVec S_ 1 := (fun x v => Host.reduce IntOp.andi x v reducesTo_S8x8192_S_d0_1 h_S_) main_v6 main_c_1
  let main_v8 : IVec S_ 1 := andi main_v3 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Kernel.lean ====
abbrev S8x8192x1024 : Shape := ⟨3, ![8, 8192, 1024]⟩
abbrev S8x8192 : Shape := ⟨2, ![8, 8192]⟩
abbrev S8192x2048 : Shape := ⟨2, ![8192, 2048]⟩
abbrev S8192 : Shape := ⟨1, ![8192]⟩
abbrev S8 : Shape := ⟨1, ![8]⟩
abbrev S_ : Shape := ⟨0, ![]⟩
abbrev S8x8192x1024x1 : Shape := ⟨4, ![8, 8192, 1024, 1]⟩
abbrev S8x8192x1024x2 : Shape := ⟨4, ![8, 8192, 1024, 2]⟩
abbrev S8x8192x2048 : Shape := ⟨3, ![8, 8192, 2048]⟩
abbrev S8x8192x1 : Shape := ⟨3, ![8, 8192, 1]⟩
abbrev S8192x1 : Shape := ⟨2, ![8192, 1]⟩
abbrev S8192x8192 : Shape := ⟨2, ![8192, 8192]⟩
abbrev S1024x1 : Shape := ⟨2, ![1024, 1]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 31
  | .vmem => 9
  | .smem => 0
  | _ => 0

abbrev bufTy : (tb : Table) → Fin (tcTables nBuf tb) → BufTy
  | .hbm, ⟨0, _⟩ => ⟨S8x8192x1024, .i32⟩
  | .hbm, ⟨1, _⟩ => ⟨S8x8192, .f32⟩
  | .hbm, ⟨2, _⟩ => ⟨S8x8192, .f32⟩
  | .hbm, ⟨3, _⟩ => ⟨S8192x2048, .f32⟩
  | .hbm, ⟨4, _⟩ => ⟨S8192, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8x8192x1024, .i32⟩
  | .hbm, ⟨9, _⟩ => ⟨S8x8192x1024, .i32⟩
  | .hbm, ⟨10, _⟩ => ⟨S_, .i32⟩
  | .hbm, ⟨11, _⟩ => ⟨S8x8192x1024, .i32⟩
  | .hbm, ⟨12, _⟩ => ⟨S8x8192x1024, .i32⟩
  | .hbm, ⟨13, _⟩ => ⟨S_, .i32⟩
  | .hbm, ⟨14, _⟩ => ⟨S8x8192x1024, .i32⟩
  | .hbm, ⟨15, _⟩ => ⟨S8x8192x1024, .i32⟩
  | .hbm, ⟨16, _⟩ => ⟨S8x8192x1024x1, .i32⟩
  | .hbm, ⟨17, _⟩ => ⟨S8x8192x1024x1, .i32⟩
  | .hbm, ⟨18, _⟩ => ⟨S8x8192x1024x2, .i32⟩
  | .hbm, ⟨19, _⟩ => ⟨S8x8192x2048, .i32⟩
  | .hbm, ⟨20, _⟩ => ⟨S8x8192x2048, .f32⟩
  | .hbm, ⟨21, _⟩ => ⟨S8x8192x1, .f32⟩
  | .hbm, ⟨22, _⟩ => ⟨S8x8192x2048, .f32⟩
  | .hbm, ⟨23, _⟩ => ⟨S8x8192x2048, .f32⟩
  | .hbm, ⟨24, _⟩ => ⟨S8x8192x1, .f32⟩
  | .hbm, ⟨25, _⟩ => ⟨S8x8192x2048, .f32⟩
  | .hbm, ⟨26, _⟩ => ⟨S8x8192x2048, .f32⟩
  | .hbm, ⟨27, _⟩ => ⟨S8x8192x2048, .bf16⟩
  | .hbm, ⟨28, _⟩ => ⟨S8192x2048, .bf16⟩
  | .hbm, ⟨29, _⟩ => ⟨S8192x1, .i32⟩
  | .hbm, ⟨30, _⟩ => ⟨S8192x8192, .f32⟩
  | .local _ .vmem, ⟨0, _⟩ => ⟨S1024x1, .i32⟩
  | .local _ .vmem, ⟨1, _⟩ => ⟨S1024x1, .i32⟩
  | .local _ .vmem, ⟨2, _⟩ => ⟨S1024x2048, .bf16⟩
  | .local _ .vmem, ⟨3, _⟩ => ⟨S1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x8192x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8x8192x1024 : S_.BroadcastsInDim S8x8192x1024 (![] : Fin 0 → Fin S8x8192x1024.rank)
  bcast_S8x8192x1024_S8x8192x1024x1_0_1_2 : S8x8192x1024.BroadcastsInDim S8x8192x1024x1 (![0, 1, 2] : Fin 3 → Fin S8x8192x1024x1.rank)
  concatenates_S8x8192x1024x1_S8x8192x1024x1_S8x8192x1024x2_d3 : Shape.Concatenates [S8x8192x1024x1, S8x8192x1024x1] S8x8192x1024x2 3
  shapeCasts_S8x8192x1024x2_S8x8192x2048 : S8x8192x1024x2.ShapeCasts S8x8192x2048
  bcast_S8x8192_S8x8192x1_0_1 : S8x8192.BroadcastsInDim S8x8192x1 (![0, 1] : Fin 2 → Fin S8x8192x1.rank)
  bcast_S8x8192x1_S8x8192x2048_0_1_2 : S8x8192x1.BroadcastsInDim S8x8192x2048 (![0, 1, 2] : Fin 3 → Fin S8x8192x2048.rank)
  bitsLt_bf16_f32 : FTy.bits .bf16 < FTy.bits .f32
  shapeCasts_S8192_S8192x1 : S8192.ShapeCasts S8192x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .i32 = 32 ∨ (Rect.block (s := S8192x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x8192x2048.size a
  hwx0_2 : ∀ i : grid0.Coords, EltTy.bits .bf16 = 32 ∨ (Rect.block (s := S8x8192x2048) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v19) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x8192x1024 : Shape := ⟨3, ![8, 8192, 1024]⟩
abbrev S8x8192 : Shape := ⟨2, ![8, 8192]⟩
abbrev S8192x2048 : Shape := ⟨2, ![8192, 2048]⟩
abbrev S8192 : Shape := ⟨1, ![8192]⟩
abbrev S8 : Shape := ⟨1, ![8]⟩
abbrev S_ : Shape := ⟨0, ![]⟩
abbrev S8x8192x1024x1 : Shape := ⟨4, ![8, 8192, 1024, 1]⟩
abbrev S8x8192x1024x2 : Shape := ⟨4, ![8, 8192, 1024, 2]⟩
abbrev S8x8192x2048 : Shape := ⟨3, ![8, 8192, 2048]⟩
abbrev S8x8192x1 : Shape := ⟨3, ![8, 8192, 1]⟩
abbrev S8192x8192 : Shape := ⟨2, ![8192, 8192]⟩
abbrev S8192x1 : Shape := ⟨2, ![8192, 1]⟩
abbrev S1x8192x2048 : Shape := ⟨3, ![1, 8192, 2048]⟩
abbrev S2048x8192 : Shape := ⟨2, ![2048, 8192]⟩

abbrev nBuf : Space → Nat
  | .hbm => 125
  | .vmem => 0
  | .smem => 0
  | _ => 0

abbrev bufTy : (tb : Table) → Fin (tcTables nBuf tb) → BufTy
  | .hbm, ⟨0, _⟩ => ⟨S8x8192x1024, .i32⟩
  | .hbm, ⟨1, _⟩ => ⟨S8x8192, .f32⟩
  | .hbm, ⟨2, _⟩ => ⟨S8x8192, .f32⟩
  | .hbm, ⟨3, _⟩ => ⟨S8192x2048, .f32⟩
  | .hbm, ⟨4, _⟩ => ⟨S8192, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8x8192x1024, .i32⟩
  | .hbm, ⟨9, _⟩ => ⟨S8x8192x1024, .i32⟩
  | .hbm, ⟨10, _⟩ => ⟨S_, .i32⟩
  | .hbm, ⟨11, _⟩ => ⟨S8x8192x1024, .i32⟩
  | .hbm, ⟨12, _⟩ => ⟨S8x8192x1024, .i32⟩
  | .hbm, ⟨13, _⟩ => ⟨S_, .i32⟩
  | .hbm, ⟨14, _⟩ => ⟨S8x8192x1024, .i32⟩
  | .hbm, ⟨15, _⟩ => ⟨S8x8192x1024, .i32⟩
  | .hbm, ⟨16, _⟩ => ⟨S8x8192x1024x1, .i32⟩
  | .hbm, ⟨17, _⟩ => ⟨S8x8192x1024x1, .i32⟩
  | .hbm, ⟨18, _⟩ => ⟨S8x8192x1024x2, .i32⟩
  | .hbm, ⟨19, _⟩ => ⟨S8x8192x2048, .i32⟩
  | .hbm, ⟨20, _⟩ => ⟨S8x8192x2048, .f32⟩
  | .hbm, ⟨21, _⟩ => ⟨S8x8192x1, .f32⟩
  | .hbm, ⟨22, _⟩ => ⟨S8x8192x2048, .f32⟩
  | .hbm, ⟨23, _⟩ => ⟨S8x8192x2048, .f32⟩
  | .hbm, ⟨24, _⟩ => ⟨S8x8192x1, .f32⟩
  | .hbm, ⟨25, _⟩ => ⟨S8x8192x2048, .f32⟩
  | .hbm, ⟨26, _⟩ => ⟨S8x8192x2048, .f32⟩
  | .hbm, ⟨27, _⟩ => ⟨S_, .f32⟩
  | .hbm, ⟨28, _⟩ => ⟨S8192x8192, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x8192x2048, .f32⟩
  | .hbm, ⟨37, _⟩ => ⟨S8192x2048, .f32⟩
  | .hbm, ⟨38, _⟩ => ⟨S2048x8192, .f32⟩
  | .hbm, ⟨39, _⟩ => ⟨S8192x8192, .f32⟩
  | .hbm, ⟨40, _⟩ => ⟨S8192x8192, .f32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S8192, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S1x8192x2048, .f32⟩
  | .hbm, ⟨49, _⟩ => ⟨S8192x2048, .f32⟩
  | .hbm, ⟨50, _⟩ => ⟨S2048x8192, .f32⟩
  | .hbm, ⟨51, _⟩ => ⟨S8192x8192, .f32⟩
  | .hbm, ⟨52, _⟩ => ⟨S8192x8192, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S1x8192x2048, .f32⟩
  | .hbm, ⟨61, _⟩ => ⟨S8192x2048, .f32⟩
  | .hbm, ⟨62, _⟩ => ⟨S2048x8192, .f32⟩
  | .hbm, ⟨63, _⟩ => ⟨S8192x8192, .f32⟩
  | .hbm, ⟨64, _⟩ => ⟨S8192x8192, .f32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S8192, .f32⟩
  | .hbm, ⟨69, _⟩ => ⟨S8192x1, .f32⟩
  | .hbm, ⟨70, _⟩ => ⟨S8192x2048, .f32⟩
  | .hbm, ⟨71, _⟩ => ⟨S8192x2048, .f32⟩
  | .hbm, ⟨72, _⟩ => ⟨S1x8192x2048, .f32⟩
  | .hbm, ⟨73, _⟩ => ⟨S8192x2048, .f32⟩
  | .hbm, ⟨74, _⟩ => ⟨S2048x8192, .f32⟩
  | .hbm, ⟨75, _⟩ => ⟨S8192x8192, .f32⟩
  | .hbm, ⟨76, _⟩ => ⟨S8192x8192, .f32⟩
  | .hbm, ⟨77, _⟩ => ⟨S_, .i32⟩
  | .hbm, ⟨78, _⟩ => ⟨S8192, .i32⟩
  | .hbm, ⟨79, _⟩ => ⟨S8192, .i1⟩
  | .hbm, ⟨80, _⟩ => ⟨S8192, .f32⟩
  | .hbm, ⟨81, _⟩ => ⟨S8192x1, .f32⟩
  | .hbm, ⟨82, _⟩ => ⟨S8192x2048, .f32⟩
  | .hbm, ⟨83, _⟩ => ⟨S8192x2048, .f32⟩
  | .hbm, ⟨84, _⟩ => ⟨S1x8192x2048, .f32⟩
  | .hbm, ⟨85, _⟩ => ⟨S8192x2048, .f32⟩
  | .hbm, ⟨86, _⟩ => ⟨S2048x8192, .f32⟩
  | .hbm, ⟨87, _⟩ => ⟨S8192x8192, .f32⟩
  | .hbm, ⟨88, _⟩ => ⟨S8192x8192, .f32⟩
  | .hbm, ⟨89, _⟩ => ⟨S_, .i32⟩
  | .hbm, ⟨90, _⟩ => ⟨S8192, .i32⟩
  | .hbm, ⟨91, _⟩ => ⟨S8192, .i1⟩
  | .hbm, ⟨92, _⟩ => ⟨S8192, .f32⟩
  | .hbm, ⟨93, _⟩ => ⟨S8192x1, .f32⟩
  | .hbm, ⟨94, _⟩ => ⟨S8192x2048, .f32⟩
  | .hbm, ⟨95, _⟩ => ⟨S8192x2048, .f32⟩
  | .hbm, ⟨96, _⟩ => ⟨S1x8192x2048, .f32⟩
  | .hbm, ⟨97, _⟩ => ⟨S8192x2048, .f32⟩
  | .hbm, ⟨98, _⟩ => ⟨S2048x8192, .f32⟩
  | .hbm, ⟨99, _⟩ => ⟨S8192x8192, .f32⟩
  | .hbm, ⟨100, _⟩ => ⟨S8192x8192, .f32⟩
  | .hbm, ⟨101, _⟩ => ⟨S_, .i32⟩
  | .hbm, ⟨102, _⟩ => ⟨S8192, .i32⟩
  | .hbm, ⟨103, _⟩ => ⟨S8192, .i1⟩
  | .hbm, ⟨104, _⟩ => ⟨S8192, .f32⟩
  | .hbm, ⟨105, _⟩ => ⟨S8192x1, .f32⟩
  | .hbm, ⟨106, _⟩ => ⟨S8192x2048, .f32⟩
  | .hbm, ⟨107, _⟩ => ⟨S8192x2048, .f32⟩
  | .hbm, ⟨108, _⟩ => ⟨S1x8192x2048, .f32⟩
  | .hbm, ⟨109, _⟩ => ⟨S8192x2048, .f32⟩
  | .hbm, ⟨110, _⟩ => ⟨S2048x8192, .f32⟩
  | .hbm, ⟨111, _⟩ => ⟨S8192x8192, .f32⟩
  | .hbm, ⟨112, _⟩ => ⟨S8192x8192, .f32⟩
  | .hbm, ⟨113, _⟩ => ⟨S_, .i32⟩
  | .hbm, ⟨114, _⟩ => ⟨S8192, .i32⟩
  | .hbm, ⟨115, _⟩ => ⟨S8192, .i1⟩
  | .hbm, ⟨116, _⟩ => ⟨S8192, .f32⟩
  | .hbm, ⟨117, _⟩ => ⟨S8192x1, .f32⟩
  | .hbm, ⟨118, _⟩ => ⟨S8192x2048, .f32⟩
  | .hbm, ⟨119, _⟩ => ⟨S8192x2048, .f32⟩
  | .hbm, ⟨120, _⟩ => ⟨S1x8192x2048, .f32⟩
  | .hbm, ⟨121, _⟩ => ⟨S8192x2048, .f32⟩
  | .hbm, ⟨122, _⟩ => ⟨S2048x8192, .f32⟩
  | .hbm, ⟨123, _⟩ => ⟨S8192x8192, .f32⟩
  | .hbm, ⟨124, _⟩ => ⟨S8192x8192, .f32⟩
  | _, _ => ⟨S8x8192x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_c_7 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_c_8 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_c_9 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩

abbrev nD : Nat := 1
abbrev τ : Topo := Topo.v7x

variable {F : FTy → Type} [FloatOps F]

class Facts₀ : Prop where
  bcast_S_S8x8192x1024 : S_.BroadcastsInDim S8x8192x1024 (![] : Fin 0 → Fin S8x8192x1024.rank)
  bcast_S8x8192x1024_S8x8192x1024x1_0_1_2 : S8x8192x1024.BroadcastsInDim S8x8192x1024x1 (![0, 1, 2] : Fin 3 → Fin S8x8192x1024x1.rank)
  concatenates_S8x8192x1024x1_S8x8192x1024x1_S8x8192x1024x2_d3 : Shape.Concatenates [S8x8192x1024x1, S8x8192x1024x1] S8x8192x1024x2 3
  shapeCasts_S8x8192x1024x2_S8x8192x2048 : S8x8192x1024x2.ShapeCasts S8x8192x2048
  bcast_S8x8192_S8x8192x1_0_1 : S8x8192.BroadcastsInDim S8x8192x1 (![0, 1] : Fin 2 → Fin S8x8192x1.rank)
  bcast_S8x8192x1_S8x8192x2048_0_1_2 : S8x8192x1.BroadcastsInDim S8x8192x2048 (![0, 1, 2] : Fin 3 → Fin S8x8192x2048.rank)
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  slices_S8x8192x2048_S1x8192x2048_0_0_0 : S8x8192x2048.Slices ![0, 0, 0] S1x8192x2048
  shapeCasts_S1x8192x2048_S8192x2048 : S1x8192x2048.ShapeCasts S8192x2048
  transposes_S8192x2048_S2048x8192_1_0 : S8192x2048.Transposes [1, 0] S2048x8192
  slices_S8x8192x2048_S1x8192x2048_1_0_0 : S8x8192x2048.Slices ![1, 0, 0] S1x8192x2048
  slices_S8x8192x2048_S1x8192x2048_2_0_0 : S8x8192x2048.Slices ![2, 0, 0] S1x8192x2048
  slices_S8x8192x2048_S1x8192x2048_3_0_0 : S8x8192x2048.Slices ![3, 0, 0] S1x8192x2048
  slices_S8x8192x2048_S1x8192x2048_4_0_0 : S8x8192x2048.Slices ![4, 0, 0] S1x8192x2048
  slices_S8x8192x2048_S1x8192x2048_5_0_0 : S8x8192x2048.Slices ![5, 0, 0] S1x8192x2048
  slices_S8x8192x2048_S1x8192x2048_6_0_0 : S8x8192x2048.Slices ![6, 0, 0] S1x8192x2048
  slices_S8x8192x2048_S1x8192x2048_7_0_0 : S8x8192x2048.Slices ![7, 0, 0] S1x8192x2048
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.MoeSpec.lean ====
/-
  WHAT BOTH PROGRAMS COMPUTE, as one function of the arguments, over the extended reals.

  A grouped matrix product with eight experts. Token `t` carries an expert id `eid t`; expert `e` owns a weight
  matrix `W e` of 8192 output rows and 2048 input columns. Output entry (t, f) is the sum over the experts of
  `∑ h, (x t h · [eid t = e]) · W e f h`: every expert's product is taken over ALL tokens, the tokens of the other
  experts entering with the factor 0. Nothing here divides or cancels, so the statement needs no finiteness: it is
  an identity between sums of products on the extended reals.

  `W` itself (the dequantised weights) stays a parameter: both programs build it by the same operations from the
  same three arguments, and no proof below looks inside it.
-/
import Idealize.ShloMosaic.PureOps.Ideal
import Idealize.ShloMosaic.Lib.ValueIdx

noncomputable section

open scoped BigOperators
open Idealize.ShloMosaic Idealize.ShloMosaic.ValueIdx

namespace Cert.Moe

/-- The routing factor: `1` when a token whose expert id is the word `v` belongs to expert `e`, else `0` —
    the comparison's one bit read as a number. -/
def routed (v : BitVec 32) (e : Nat) : EReal :=
  (((IntOp.cmpi .eq v (BitVec.ofNat 32 e)).toNat : ℝ) : EReal)

/-- Expert `e`'s contribution to output entry (t, f): the inner product over the 2048 input columns of token `t`'s
    row, masked by the routing factor, with row `f` of the expert's weights. -/
def expertTerm (x : FVec Ideal ⟨2, ![8192, 2048]⟩ .f32) (eid : IVec ⟨1, ![8192]⟩ 32)
    (W : FVec Ideal ⟨3, ![8, 8192, 2048]⟩ .f32) (e : Fin 8) (t f : Fin 8192) : EReal :=
  ∑ h : Fin 2048, (x (ix2 t h) * routed (eid (ix1 t)) e.val) * W (ix3 e f h)

/-- The result array: entry (t, f) is the sum of the eight experts' contributions. -/
def moe (x : FVec Ideal ⟨2, ![8192, 2048]⟩ .f32) (eid : IVec ⟨1, ![8192]⟩ 32)
    (W : FVec Ideal ⟨3, ![8, 8192, 2048]⟩ .f32) : FVec Ideal ⟨2, ![8192, 8192]⟩ .f32 :=
  fun j => ∑ e : Fin 8, expertTerm x eid W e (j 0) (j 1)

/-- A single bit widened to 32 bits and read as a SIGNED integer is the bit read as an unsigned one: the widened word
    is 0 or 1, never negative. (One program converts the comparison bit directly, the other widens it first.) -/
theorem bit_widened_signed (b : BitVec 1) : (((b.setWidth 32).toInt : ℝ) : EReal) = ((b.toNat : ℝ) : EReal) := by
  have h : ∀ b : BitVec 1, (b.setWidth 32).toInt = (b.toNat : ℤ) := by decide
  rw [h b, Int.cast_natCast]

end Cert.Moe

end
-- ==== Proof.MoeStep.lean ====
/-
  ONE GRID POINT'S ARITHMETIC, read at one entry.

  At a grid point the body adds to the running block `acc` (1024 tokens by 1024 output rows) the product of the
  point's token block, masked by the routing factor of the point's expert, with the point's block of that expert's
  weights, contracted over the 2048 input columns of both:
      new (p, q) = acc (p, q) + ∑ h, (x (p, h) · routed (ids p) e) · w (q, h).
  The matrix unit's product into a zero accumulator is, on the extended reals, exactly that sum (no rounding and no
  order is left in it); the mask is the comparison's bit, widened and converted, which is the routing factor.
-/
import proofs.«412443_j61881888801247_1_alg».proof.Proof.Gen.KernelIdeal.Skeleton
import proofs.«412443_j61881888801247_1_alg».proof.Proof.MoeSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Step

open Cert.KernelIdeal Cert.KernelIdeal.Gen Cert.Moe

/-! ## Where the product reads its operands: (token, column) on the left, (output row, column) on the right -/

theorem lhs_token (i : S1024x1024.Idx) (k : dot_S1024x2048_S1024x2048_S1024x1024_1_1_0_0_n_n.contr.Idx) :
    (dot_S1024x2048_S1024x2048_S1024x1024_1_1_0_0_n_n.lhsIdx i k 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_column (i : S1024x1024.Idx) (k : dot_S1024x2048_S1024x2048_S1024x1024_1_1_0_0_n_n.contr.Idx) :
    (dot_S1024x2048_S1024x2048_S1024x1024_1_1_0_0_n_n.lhsIdx i k 1).val = (k ⟨0, by decide⟩).val :=
  dot_S1024x2048_S1024x2048_S1024x1024_1_1_0_0_n_n.lhsIdx_val_of_single rfl i k
theorem rhs_row (i : S1024x1024.Idx) (k : dot_S1024x2048_S1024x2048_S1024x1024_1_1_0_0_n_n.contr.Idx) :
    (dot_S1024x2048_S1024x2048_S1024x1024_1_1_0_0_n_n.rhsIdx i k 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_column (i : S1024x1024.Idx) (k : dot_S1024x2048_S1024x2048_S1024x1024_1_1_0_0_n_n.contr.Idx) :
    (dot_S1024x2048_S1024x2048_S1024x1024_1_1_0_0_n_n.rhsIdx i k 1).val = (k ⟨0, by decide⟩).val :=
  dot_S1024x2048_S1024x2048_S1024x1024_1_1_0_0_n_n.rhsIdx_val_of_single rfl i k

/-- The matrix unit's product of a [1024, 2048] block with a [1024, 2048] block over their common 2048 columns, into
    a zero accumulator, at entry (p, q): the inner product of row `p` of the left with row `q` of the right. -/
theorem product_entry (a b : FVec Ideal S1024x2048 .bf16) (p q : Fin 1024) :
    matmul dot_S1024x2048_S1024x2048_S1024x1024_1_1_0_0_n_n none a b (constant S1024x1024 .f32 0x00000000#32) (ix2 p q)
      = ∑ h : Fin 2048, a (ix2 p h) * b (ix2 q h) := by
  simp only [matmul]
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k := funext fun a => Fin.ext (by
    match a with
    | ⟨0, _⟩ => exact lhs_token _ _
    | ⟨1, _⟩ => exact (lhs_column _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k := funext fun a => Fin.ext (by
    match a with
    | ⟨0, _⟩ => exact rhs_row _ _
    | ⟨1, _⟩ => exact (rhs_column _ _).trans hk)
  rw [el, er]

/-- The body's update of the running block, at entry (p, q): the old entry plus the masked inner product. `i 2` is the
    grid's third coordinate, the expert the point works on. -/
theorem accumulate_entry (i : grid0.Coords) (ids : Vec Ideal S1024x1 .i32) (xb : Vec Ideal S1024x2048 .bf16)
    (acc : Vec Ideal S1024x1024 .f32) (wb : Vec Ideal S1x1024x2048 .bf16) (p q : Fin 1024) :
    k0_pay2 (F := Ideal) i ids xb acc wb (ix2 p q)
      = acc (ix2 p q) + ∑ h : Fin 2048, (xb (ix2 p h) * routed (ids (ix2 p 0)) (i 2).val) * wb (ix3 0 q h) := by
  unfold k0_pay2
  dsimp only
  simp only [shapeCast_self]
  rw [addf_apply, product_entry]
  congr 1
  refine Finset.sum_congr rfl fun h _ => ?_
  rw [mulf_apply]
  rw [broadcastTo_apply _ broadcasts_S1024x1_S1024x2048 (ix2 p h) (ix2 p (0 : Fin 1)) (fun a => match a with
      | ⟨0, _⟩ => by show p.val = if (1024 : Nat) = 1 then 0 else p.val; rw [if_neg (by decide)]
      | ⟨1, _⟩ => by show 0 = if (1 : Nat) = 1 then 0 else h.val; rw [if_pos rfl])]
  rw [shapeCast_apply wb shapeCasts_S1x1024x2048_S1024x2048 (ix2 q h) (ix3 (0 : Fin 1) q h)
    (by rewrite [Shape.rowMajor_val_three, Shape.rowMajor_val_two]
        show (0 * 1024 + q.val) * 2048 + h.val = q.val * 2048 + h.val
        omega)]
  congr 1
  congr 1
  exact bit_widened_signed _

end Cert.KernelIdeal.Step

end
-- ==== Proof.MoeCases.lean ====
/-
  WHAT THE BODY LEAVES IN ITS BUFFERS, case by case.

  The body keeps a running [1024, 1024] block across the eight experts of one (token block, output block) pair. It
  runs in one of three ways, chosen by the expert coordinate of the grid point; in each the running block ends at one
  and the same arithmetic term of the point's three input blocks and of the block it started from, and at the last
  expert the output block is a copy of it. The lemmas below say so, for any float instance.
-/
import proofs.«412443_j61881888801247_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Cases

open Cert.KernelIdeal Cert.KernelIdeal.Gen

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-! ## What each control case leaves, as the body's one arithmetic term

The body runs in three ways, by the expert coordinate `e` of the grid point. At `e = 0` it first stores zeros in the
running block, then adds the point's product to what it reads back; at `0 < e < 7` it adds the product to what the point
before left; at `e = 7` it does the same and then copies the running block to the output block. In every case the
running block ends at the update term `k0_pay2` of the point's three input blocks and of the block it started from
(zeros at `e = 0`); at `e = 7` the output block holds the same. Each lemma reads the stores the run found back
through the whole buffers they cover. -/

/-- `e = 0`: zeros stored, read back, and updated. -/
theorem first_leaves (c : Dev nD) (i : grid0.Coords) (a3 : Memref sig .tc .vmem S1024x1 .i32) (h3 : a3.IsWhole) (a4 : Memref sig .tc .vmem S1024x2048 .bf16) (h4 : a4.IsWhole) (a5 : Memref sig .tc .vmem S1x1024x2048 .bf16) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i) (x0 : Vec F S1024x1 .i32) (x1 : Vec F S1024x2048 .bf16) (x2 : Vec F S1x1024x2048 .bf16) :
    sout0_A_0 c i a3 h3 a4 h4 a5 h5 a6 h6 a7 h7 hc0 hc1 x0 x1 x2 = k0_pay2 i x0 x1 (k0_pay1 (F := F)) x2 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin2]
  simp only [View.readAt_eq_ld, h3.read_unread, h4.read_unread, h5.read_unread, h7.read_unread, View.ld_unit_zero (S := S1024x1) origin2, View.ld_unit_zero (S := S1024x2048) origin2, View.ld_unit_zero (S := S1024x1024) origin2, View.ld_unit_zero (S := S1x1024x2048) origin3, View.readCov_unit_zero (S := S1024x1024) _ origin2]

/-- `0 < e < 7`: the block the point before left, updated. -/
theorem middle_leaves (c : Dev nD) (i : grid0.Coords) (a3 : Memref sig .tc .vmem S1024x1 .i32) (h3 : a3.IsWhole) (a4 : Memref sig .tc .vmem S1024x2048 .bf16) (h4 : a4.IsWhole) (a5 : Memref sig .tc .vmem S1x1024x2048 .bf16) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i) (x0 : Vec F S1024x1 .i32) (x1 : Vec F S1024x2048 .bf16) (x2 : Vec F S1x1024x2048 .bf16) (xs0 : Vec F S1024x1024 .f32) :
    sout0_B_0 c i a3 h3 a4 h4 a5 h5 a6 h6 a7 h7 hc0 hc1 x0 x1 x2 xs0 = k0_pay2 i x0 x1 xs0 x2 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero origin2]
  simp only [View.readAt_eq_ld, h3.read_unread, h4.read_unread, h5.read_unread, h7.read_unread, View.ld_unit_zero (S := S1024x1) origin2, View.ld_unit_zero (S := S1024x2048) origin2, View.ld_unit_zero (S := S1024x1024) origin2, View.ld_unit_zero (S := S1x1024x2048) origin3, View.readCov_unit_zero (S := S1024x1024) _ origin2]

/-- `e = 7`, the running block: the block the point before left, updated. -/
theorem last_leaves (c : Dev nD) (i : grid0.Coords) (a3 : Memref sig .tc .vmem S1024x1 .i32) (h3 : a3.IsWhole) (a4 : Memref sig .tc .vmem S1024x2048 .bf16) (h4 : a4.IsWhole) (a5 : Memref sig .tc .vmem S1x1024x2048 .bf16) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 : Vec F S1024x1 .i32) (x1 : Vec F S1024x2048 .bf16) (x2 : Vec F S1x1024x2048 .bf16) (xs0 : Vec F S1024x1024 .f32) :
    sout0_C_0 c i a3 h3 a4 h4 a5 h5 a6 h6 a7 h7 hc0 hc1 x0 x1 x2 xs0 = k0_pay2 i x0 x1 xs0 x2 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin2]
  simp only [View.readAt_eq_ld, h3.read_unread, h4.read_unread, h5.read_unread, h7.read_unread, View.ld_unit_zero (S := S1024x1) origin2, View.ld_unit_zero (S := S1024x2048) origin2, View.ld_unit_zero (S := S1024x1024) origin2, View.ld_unit_zero (S := S1x1024x2048) origin3, View.readCov_unit_zero (S := S1024x1024) _ origin2]

/-- `e = 7`, the output block: a copy of the updated running block. -/
theorem last_writes (c : Dev nD) (i : grid0.Coords) (a3 : Memref sig .tc .vmem S1024x1 .i32) (h3 : a3.IsWhole) (a4 : Memref sig .tc .vmem S1024x2048 .bf16) (h4 : a4.IsWhole) (a5 : Memref sig .tc .vmem S1x1024x2048 .bf16) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 : Vec F S1024x1 .i32) (x1 : Vec F S1024x2048 .bf16) (x2 : Vec F S1x1024x2048 .bf16) (xs0 : Vec F S1024x1024 .f32) :
    out0_C_3 c i a3 h3 a4 h4 a5 h5 a6 h6 a7 h7 hc0 hc1 x0 x1 x2 xs0 = k0_pay2 i x0 x1 xs0 x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin2]
  simp only [View.readAt_eq_ld, h3.read_unread, h4.read_unread, h5.read_unread, h7.read_unread, View.ld_unit_zero (S := S1024x1) origin2, View.ld_unit_zero (S := S1024x2048) origin2, View.ld_unit_zero (S := S1024x1024) origin2, View.ld_unit_zero (S := S1x1024x2048) origin3, View.readCov_unit_zero (S := S1024x1024) _ origin2]

end Cert.KernelIdeal.Cases

end
-- ==== Proof.MoeFold.lean ====
/-
  THE KERNEL'S RESULT ARRAY is the specification's function of the arrays its region finds.

  The grid is 8 token blocks × 8 output blocks × 8 experts, the expert fastest: eight consecutive points form a RUN
  that shares one (token block, output block) pair and one running [1024, 1024] block, reset at the run's first point,
  updated at each of its points, and written back to the result array after its last. An update adds, at entry (p, q)
  of the block, the point's expert's contribution to output entry (1024 · token block + p, 1024 · output block + q)
  (`step_at`, from the body's arithmetic at an entry and the blocks' places in their arrays). So after the run's eighth
  point the running block holds zero plus the eight experts' contributions (`run_sum`: the fold of a run is the sum of
  its addends, in the commutative monoid of the extended reals), which is the specification at that entry
  (`run_total`). The 64 written-back blocks tile the result array (`covered`), so the array is the specification's
  function everywhere (`final`), and the kernel's run ends with it there (`run`).
-/
import proofs.«412443_j61881888801247_1_alg».proof.Proof.Gen.KernelIdeal.Value
import proofs.«412443_j61881888801247_1_alg».proof.Proof.MoeSpec
import proofs.«412443_j61881888801247_1_alg».proof.Proof.MoeStep
import proofs.«412443_j61881888801247_1_alg».proof.Proof.MoeCases
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Fold

open Cert.KernelIdeal Cert.KernelIdeal.Gen Cert.KernelIdeal.Value Cert.Moe

variable (m : (ℓ : Loc nD τ sig) → Buf (Elt Ideal) ℓ) (ρ : Dev nD → PrngReg)

/-! ## The schedule

Grid point `t` of the 8 × 8 × 8 grid, numbered row-major, is (token block `t / 64`, output block `t / 8 % 8`, expert
`t % 8`): the expert runs fastest. The id and token windows follow the token block, the weight window is (expert,
output block), the result window (token block, output block). Decided once over the 512 points. -/

theorem schedule : ∀ t : Fin cfg0.N,
    (grid0.coords t 2).val = t.val % 8
    ∧ win0_0.index t (0 : Fin 2) = t.val / 64 ∧ win0_0.index t (1 : Fin 2) = 0
    ∧ win0_1.index t (0 : Fin 2) = t.val / 64 ∧ win0_1.index t (1 : Fin 2) = 0
    ∧ win0_2.index t (0 : Fin 3) = t.val % 8 ∧ win0_2.index t (1 : Fin 3) = t.val / 8 % 8 ∧ win0_2.index t (2 : Fin 3) = 0
    ∧ win0_3.index t (0 : Fin 2) = t.val / 64 ∧ win0_3.index t (1 : Fin 2) = t.val / 8 % 8 :=
  (by decide +kernel : ∀ t : Fin grid0.N, _)

/-! ## The arrays the region finds, and the blocks a point reads of them -/

/-- The expert ids as a column, the tokens and the dequantised weights, as the region finds them. -/
abbrev idArr (c : Dev nD) : Vec Ideal S8192x1 .i32 := V m c main_v19
abbrev tokenArr (c : Dev nD) : Vec Ideal S8192x2048 .bf16 := V m c main_v18
abbrev weightArr (c : Dev nD) : Vec Ideal S8x8192x2048 .bf16 := V m c main_v17

/-- The three input blocks of point `t`. -/
abbrev idBlock (c : Dev nD) (t : Fin cfg0.N) : Vec Ideal S1024x1 .i32 := iblk m c 0 t
abbrev tokenBlock (c : Dev nD) (t : Fin cfg0.N) : Vec Ideal S1024x2048 .bf16 := iblk m c 1 t
abbrev weightBlock (c : Dev nD) (t : Fin cfg0.N) : Vec Ideal S1x1024x2048 .bf16 := iblk m c 2 t

/-- Row `p` of the id block is token `1024 · (t / 64) + p`. -/
theorem idBlock_apply (c : Dev nD) (t : Fin cfg0.N) (p : Fin 1024) (r : Fin 8192) (hr : r.val = 1024 * (t.val / 64) + p.val) :
    idBlock m c t (ix2 p 0) = idArr m c (ix2 r 0) := by
  obtain ⟨-, e0, e1, -⟩ := schedule t
  unfold idBlock idArr iblk
  rw [View.read_apply]
  show V m c main_v19 _ = V m c main_v19 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1 + 1 * 0 = 0; rw [e1]

/-- Row `p` of the token block is token `1024 · (t / 64) + p`, all 2048 columns. -/
theorem tokenBlock_apply (c : Dev nD) (t : Fin cfg0.N) (p : Fin 1024) (h : Fin 2048) (r : Fin 8192)
    (hr : r.val = 1024 * (t.val / 64) + p.val) :
    tokenBlock m c t (ix2 p h) = tokenArr m c (ix2 r h) := by
  obtain ⟨-, -, -, e0, e1, -⟩ := schedule t
  unfold tokenBlock tokenArr iblk
  rw [View.read_apply]
  show V m c main_v18 _ = V m c main_v18 _
  congr 1
  funext a
  apply Fin.ext
  match a with
  | ⟨0, _⟩ => show win0_1.index t (0 : Fin 2) * 1024 + 1 * p.val = r.val; rw [e0, hr]; omega
  | ⟨1, _⟩ => show win0_1.index t (1 : Fin 2) * 2048 + 1 * h.val = h.val; rw [e1]; omega

/-- Row `q` of the weight block is output row `1024 · (t / 8 % 8) + q` of expert `t % 8`. -/
theorem weightBlock_apply (c : Dev nD) (t : Fin cfg0.N) (q : Fin 1024) (h : Fin 2048) (e : Fin 8) (f : Fin 8192)
    (he : e.val = t.val % 8) (hf : f.val = 1024 * (t.val / 8 % 8) + q.val) :
    weightBlock m c t (ix3 0 q h) = weightArr m c (ix3 e f h) := by
  obtain ⟨-, -, -, -, -, e0, e1, e2, -⟩ := schedule t
  unfold weightBlock weightArr iblk
  rw [View.read_apply]
  show V m c main_v17 _ = V m c main_v17 _
  congr 1
  funext a
  apply Fin.ext
  match a with
  | ⟨0, _⟩ => show win0_2.index t (0 : Fin 3) * 1 + 1 * 0 = e.val; rw [e0, he]; omega
  | ⟨1, _⟩ => show win0_2.index t (1 : Fin 3) * 1024 + 1 * q.val = f.val; rw [e1, hf]; omega
  | ⟨2, _⟩ => show win0_2.index t (2 : Fin 3) * 2048 + 1 * h.val = h.val; rw [e2]; omega

/-! ## One point's contribution, over the whole arrays -/

/-- The three arrays in the form the specification takes them: the tokens as numbers, the ids read down their
    column, the weights as numbers. -/
abbrev xs (c : Dev nD) : FVec Ideal ⟨2, ![8192, 2048]⟩ .f32 := fun i => tokenArr m c i
abbrev ids (c : Dev nD) : IVec ⟨1, ![8192]⟩ 32 := fun i => idArr m c (ix2 (i 0) 0)
abbrev ws (c : Dev nD) : FVec Ideal ⟨3, ![8, 8192, 2048]⟩ .f32 := fun i => weightArr m c i

/-- What point `n` adds to entry `y` of its running block: expert `n % 8`'s contribution to output entry
    (1024 · (n / 64) + y 0, 1024 · (n / 8 % 8) + y 1). Stated for every natural `n` (the coordinates taken modulo the
    array's extents, which changes nothing at a point of the grid), so that a run's sum can be written without bounds. -/
def addend (c : Dev nD) (n : Nat) (y : S1024x1024.Idx) : EReal :=
  expertTerm (xs m c) (ids m c) (ws m c) ⟨n % 8, Nat.mod_lt _ (by decide)⟩
    ⟨(1024 * (n / 64) + (y 0).val) % 8192, Nat.mod_lt _ (by decide)⟩
    ⟨(1024 * (n / 8 % 8) + (y 1).val) % 8192, Nat.mod_lt _ (by decide)⟩

/-- The body's update at point `t`, at an entry: the old entry plus the point's addend. -/
theorem step_at (c : Dev nD) (t : Fin cfg0.N) (acc : Vec Ideal S1024x1024 .f32) (y : S1024x1024.Idx) :
    k0_pay2 (F := Ideal) (grid0.coords t) (idBlock m c t) (tokenBlock m c t) acc (weightBlock m c t) y
      = acc y + addend m c t.val y := by
  have hN : t.val < 512 := lt_of_lt_of_eq t.isLt (show cfg0.N = 512 from N_0)
  obtain ⟨p, q, rfl⟩ : ∃ (p q : Fin 1024), y = ix2 p q := ⟨y 0, y 1, eq_ix2 y⟩
  obtain ⟨ee, -⟩ := schedule t
  refine (Step.accumulate_entry (grid0.coords t) (idBlock m c t) (tokenBlock m c t) acc (weightBlock m c t) p q).trans ?_
  unfold addend expertTerm
  refine congrArg (acc (ix2 p q) + ·) (Finset.sum_congr rfl fun h _ => ?_)
  have e1 := tokenBlock_apply m c t p h ⟨(1024 * (t.val / 64) + p.val) % 8192, Nat.mod_lt _ (by decide)⟩ (Nat.mod_eq_of_lt (by omega))
  have e2 := idBlock_apply m c t p ⟨(1024 * (t.val / 64) + p.val) % 8192, Nat.mod_lt _ (by decide)⟩ (Nat.mod_eq_of_lt (by omega))
  have e3 := weightBlock_apply m c t q h ⟨t.val % 8, Nat.mod_lt _ (by decide)⟩ ⟨(1024 * (t.val / 8 % 8) + q.val) % 8192, Nat.mod_lt _ (by decide)⟩ rfl (Nat.mod_eq_of_lt (by omega))
  rw [e1, e2, e3, ee]

/-- The block a run starts from: zeros. -/
theorem zeros_apply (y : S1024x1024.Idx) : k0_pay1 (F := Ideal) y = 0 := by
  unfold k0_pay1
  simp only [shapeCast_self]
  exact Ideal.ofBits_zero_f32

/-! ## A run of eight points: the running block as a sum -/

/-- At a run's first point (`n % 8 = 0`) the running block is reset: zeros plus the point's addend, whatever it held. -/
theorem first_point (c : Dev nD) (n : Nat) (h : n < cfg0.N) (h0 : n % 8 = 0) (y : S1024x1024.Idx) :
    scAt0_0 m c n h (VS0_0.read (Elt Ideal) VS0_0.junk) y = 0 + addend m c n y := by
  have hN : n < 512 := lt_of_lt_of_eq h (show cfg0.N = 512 from N_0)
  unfold scAt0_0
  rw [dif_pos h0, dif_neg (by omega)]
  refine (congrFun (Cases.first_leaves (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _
    (idBlock m c ⟨n, h⟩) (tokenBlock m c ⟨n, h⟩) (weightBlock m c ⟨n, h⟩)) y).trans ?_
  rw [step_at m c ⟨n, h⟩, zeros_apply]

/-- At every later point of the run the block the point before left gains the point's addend. -/
theorem later_point (c : Dev nD) (n : Nat) (h : n < cfg0.N) (acc : Vec Ideal S1024x1024 .f32) (y : S1024x1024.Idx)
    (h0 : ¬n % 8 = 0) : scAt0_0 m c n h acc y = acc y + addend m c n y := by
  unfold scAt0_0
  rw [dif_neg h0]
  by_cases h1 : n % 8 = 7
  · rw [dif_pos h1]
    refine (congrFun (Cases.last_leaves (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _
      (idBlock m c ⟨n, h⟩) (tokenBlock m c ⟨n, h⟩) (weightBlock m c ⟨n, h⟩) acc) y).trans ?_
    exact step_at m c ⟨n, h⟩ acc y
  · rw [dif_neg h1]
    refine (congrFun (Cases.middle_leaves (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _
      (idBlock m c ⟨n, h⟩) (tokenBlock m c ⟨n, h⟩) (weightBlock m c ⟨n, h⟩) acc) y).trans ?_
    exact step_at m c ⟨n, h⟩ acc y

/-- So after `j` further points of the run that starts at `b`, the running block is the sum of the addends so far. -/
theorem run_sum (c : Dev nD) (b : Nat) (hb : b % 8 = 0) (j : Nat) (hj : j ≤ 7) (h : b + j < cfg0.N) (y : S1024x1024.Idx) :
    Pipeline.accAt (fun n h => scAt0_0 m c n h (VS0_0.read (Elt Ideal) VS0_0.junk)) (scAt0_0 m c) b j h y
      = 0 + ∑ s ∈ Finset.range (j + 1), addend m c (b + s) y :=
  Pipeline.accAt_add_apply (β := EReal) (fun n h => scAt0_0 m c n h (VS0_0.read (Elt Ideal) VS0_0.junk)) (scAt0_0 m c)
    (fun _ => (0 : EReal)) (addend m c) b 7
    (fun h i => first_point m c b h hb i)
    (fun n h acc i hlt hle => later_point m c n h acc i (by omega)) j hj h y

/-! ## What the last point of a run writes back, and the result array -/

/-- The result array: the specification's function of the three arrays as the region finds them. -/
abbrev result (c : Dev nD) : Buf (Elt Ideal) ((c : Thread nD τ).loc main_v20) := moe (xs m c) (ids m c) (ws m c)

/-- At a run's last point the output block is a copy of the running block. -/
theorem out_is_running (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (Cases.last_writes (F := Ideal) c (grid0.coords t) (ms0_0 t) (hs0_0 t) (ms0_1 t) (hs0_1 t) (ms0_2 t) (hs0_2 t) (ms0_3 t) (hs0_3 t) scM0_0 (Memref.isWhole_whole _) _ _ (idBlock m c t) (tokenBlock m c t) (weightBlock m c t) _).trans
    (Cases.last_leaves (F := Ideal) c (grid0.coords t) (ms0_0 t) (hs0_0 t) (ms0_1 t) (hs0_1 t) (ms0_2 t) (hs0_2 t) (ms0_3 t) (hs0_3 t) scM0_0 (Memref.isWhole_whole _) _ _ (idBlock m c t) (tokenBlock m c t) (weightBlock m c t) _).symm

/-- The eight addends of the run that ends at `t` are the eight experts' contributions to the entry the block's entry
    `y` lands on. -/
theorem run_total (c : Dev nD) (t : Fin cfg0.N) (h1 : t.val % 8 = 7) (y : S1024x1024.Idx) (R C : Fin 8192)
    (hR : R.val = 1024 * (t.val / 64) + (y 0).val) (hC : C.val = 1024 * (t.val / 8 % 8) + (y 1).val) :
    (0 : EReal) + ∑ s ∈ Finset.range 8, addend m c (8 * (t.val / 8) + s) y
      = ∑ e : Fin 8, expertTerm (xs m c) (ids m c) (ws m c) e R C := by
  have hN : t.val < 512 := lt_of_lt_of_eq t.isLt (show cfg0.N = 512 from N_0)
  have hy0 : (y 0).val < 1024 := (y 0).isLt
  have hy1 : (y 1).val < 1024 := (y 1).isLt
  rw [zero_add, Finset.sum_range]
  refine Finset.sum_congr rfl fun e _ => ?_
  have he : e.val < 8 := e.isLt
  unfold addend
  congr 1
  · exact Fin.ext (by show (8 * (t.val / 8) + e.val) % 8 = e.val; omega)
  · exact Fin.ext (by show (1024 * ((8 * (t.val / 8) + e.val) / 64) + (y 0).val) % 8192 = R.val; rw [hR]; omega)
  · exact Fin.ext (by show (1024 * ((8 * (t.val / 8) + e.val) / 8 % 8) + (y 1).val) % 8192 = C.val; rw [hC]; omega)

/-- WHAT A WRITE-BACK WRITES: at a point that writes the output block back (the last of a run), the block is the
    result array read through the block's place in it. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have h0 : ¬t.val % 8 = 0 := by omega
  have hN : t.val < 512 := lt_of_lt_of_eq t.isLt (show cfg0.N = 512 from N_0)
  obtain ⟨-, -, -, -, -, -, -, -, e0, e1⟩ := schedule t
  rw [flushed3, out_is_running m c t h0 h1, soutsAt0_0_eq]
  funext y
  have hy0 : (y 0).val < 1024 := (y 0).isLt
  have hy1 : (y 1).val < 1024 := (y 1).isLt
  show Pipeline.accAt (fun n h => scAt0_0 m c n h (VS0_0.read (Elt Ideal) VS0_0.junk)) (scAt0_0 m c) (8 * (t.val / 8)) (t.val % 8) _
      ((cfg0.win 3).xinj (grid0.coords t) y) = result m c (((cfg0.win 3).blk t).view.emb y)
  rw [run_sum m c (8 * (t.val / 8)) (by omega) (t.val % 8) (by omega) _ _, h1]
  exact run_total m c t h1 _ _ _
    (by show win0_3.index t (0 : Fin 2) * 1024 + 1 * (y 0).val = 1024 * (t.val / 64) + (y 0).val; rw [e0]; omega)
    (by show win0_3.index t (1 : Fin 2) * 1024 + 1 * (y 1).val = 1024 * (t.val / 8 % 8) + (y 1).val; rw [e1]; omega)

/-- Every entry of the result array lies in the block of some write-back: entry (i₀, i₁) in the block of the last
    point of the run of (token block i₀ / 1024, output block i₁ / 1024). -/
theorem covered (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  have hN : cfg0.N = 512 := N_0
  obtain ⟨t, ht⟩ : ∃ t : Fin cfg0.N, t.val = 64 * ((i 0).val / 1024) + 8 * ((i 1).val / 1024) + 7 :=
    ⟨⟨64 * ((i 0).val / 1024) + 8 * ((i 1).val / 1024) + 7, by rw [hN]; omega⟩, rfl⟩
  obtain ⟨-, -, -, -, -, -, -, -, e0, e1⟩ := schedule t
  refine ⟨t, (flush0_3 t).mpr (by rw [ht]; omega), ?_⟩
  show i ∈ ((View.whole main_v20).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1024 ≤ (i 1).val ∧ (i 1).val < win0_3.index t (1 : Fin 2) * 1024 + 1024
    rw [e1, ht]; omega

/-- So the result array ends holding the specification's function. -/
theorem final (c : Dev nD) : (dats m 0 c).arrAt 3 cfg0.N = result m c :=
  (dats m 0 c).arrAt_eq_of_cover 3 (result m c) (flushed_eq m c) covered

/-- The kernel's run, read: the result array at the specification's function of the arrays the region finds, the
    arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Fold

end
-- ==== Proof.MoeArrays.lean ====
/-
  THE ARRAYS THE KERNEL'S REGION FINDS, as functions of the arguments.

  Before the region the host casts the tokens and the dequantised weights to a narrower float format — the identity
  on the extended reals — and views the id vector as a column. The dequantised weights are built by the very
  operations the reference uses (low and high four bits of each packed word interleaved along the last axis, minus the
  row's zero point, times the row's scale), so the array is the reference's own stage, without looking inside it.
-/
import proofs.«412443_j61881888801247_1_alg».proof.Proof.Gen.KernelIdeal.Frame
import proofs.«412443_j61881888801247_1_alg».proof.Proof.Gen.ReferenceIdeal.Read
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem Idealize.ShloMosaic.StableHlo

namespace Cert.KernelIdeal.Arrays

open Cert.KernelIdeal Cert.KernelIdeal.Gen

variable (m : (ℓ : Loc nD τ sig) → Buf (Elt Ideal) ℓ)

/-- The token array the region finds is the token argument. -/
theorem tokens_eq (c : Dev nD) (i : S8192x2048.Idx) :
    (V m c main_v18 : S8192x2048.Idx → EReal) i = m ((c : Thread nD τ).loc main_arg3) i := by
  have e : (V m c main_v18 : S8192x2048.Idx → EReal)
      = truncf (F := Ideal) .bf16 (m ((c : Thread nD τ).loc main_arg3)) bitsLt_bf16_f32 := by
    dsimp only [V, hostOps0]; after_results
  rw [e]; rfl

/-- The id column the region finds is the id argument, one id per row. -/
theorem ids_eq (c : Dev nD) (t : Fin 8192) :
    (V m c main_v19 : S8192x1.Idx → BitVec 32) (ix2 t 0) = m ((c : Thread nD τ).loc main_arg4) (ix1 t) := by
  have e : (V m c main_v19 : S8192x1.Idx → BitVec 32)
      = shapeCast S8192x1 (m ((c : Thread nD τ).loc main_arg4)) shapeCasts_S8192_S8192x1 := by
    dsimp only [V, hostOps0]; after_results; rfl
  rw [e]
  exact shapeCast_apply _ shapeCasts_S8192_S8192x1 (ix2 t 0) (ix1 t)
    (by rewrite [Shape.rowMajor_val_one, Shape.rowMajor_val_two]; show t.val = t.val * 1 + 0; omega)

set_option maxHeartbeats 4000000 in
/-- The weight array the region finds is the reference's dequantisation stage of the same three arguments. -/
theorem weights_eq (c : Dev nD) (i : S8x8192x2048.Idx) :
    (V m c main_v17 : S8x8192x2048.Idx → EReal) i
      = Cert.ReferenceIdeal.Read.val_main_v16 (F := Ideal) (m ((c : Thread nD τ).loc main_arg0))
          (m ((c : Thread nD τ).loc main_arg1)) (m ((c : Thread nD τ).loc main_arg2)) i := by
  have e : (V m c main_v17 : S8x8192x2048.Idx → EReal)
      = truncf (F := Ideal) .bf16 (Cert.ReferenceIdeal.Read.val_main_v16 (F := Ideal) (m ((c : Thread nD τ).loc main_arg0))
          (m ((c : Thread nD τ).loc main_arg1)) (m ((c : Thread nD τ).loc main_arg2))) bitsLt_bf16_f32 := by
    dsimp only [V, hostOps0]
    after_results_simp <;> rfl
  rw [e]; rfl

end Cert.KernelIdeal.Arrays

end
-- ==== Proof.MoeReference.lean ====
/-
  THE REFERENCE'S RESULT is the specification's function of the arguments.

  The reference unrolls the eight experts. For expert `e` it compares the id vector with `e`, converts the bit to a
  number, spreads it along the 2048 columns, multiplies the tokens by it, takes slice `e` of the dequantised weights,
  transposes it, and multiplies the two matrices; the eight products are added, in order, onto a zero array. The eight
  iterations are one function of `e`: it is stated once (`expertProduct`), read once at an entry
  (`expertProduct_apply`: the inner product over the 2048 columns that the specification calls `expertTerm`), and each
  printed stage is that function at its literal `e` by unfolding.
-/
import proofs.«412443_j61881888801247_1_alg».proof.Proof.Gen.ReferenceIdeal.Read
import proofs.«412443_j61881888801247_1_alg».proof.Proof.MoeSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx Idealize.SL.Sem Idealize.ShloMosaic.StableHlo

namespace Cert.ReferenceIdeal.MoeValue

open Cert.ReferenceIdeal Cert.ReferenceIdeal.Gen Cert.ReferenceIdeal.Read Cert.Moe

/-- Expert `e`'s product as the reference computes it: (tokens · [id = e]) times the transpose of slice `e` of the
    weights. -/
def expertProduct (e : Fin 8) (hsl : S8x8192x2048.Slices ![e.val, 0, 0] S1x8192x2048)
    (W : FVec Ideal S8x8192x2048 .f32) (x : FVec Ideal S8192x2048 .f32) (eid : IVec S8192 32) : FVec Ideal S8192x8192 .f32 :=
  Host.dotGeneral dot_S8192x2048_S2048x8192_S8192x8192_1_0_0_1_n_n none
    (mulf x (broadcastInDim S8192x2048 ![0, 1] bcast_S8192x1_S8192x2048_0_1 (broadcastInDim S8192x1 ![0] bcast_S8192_S8192x1_0
      (uitofp .f32 (cmpi .eq eid (broadcastInDim S8192 ![] bcast_S_S8192 (constantI S_ 32 (BitVec.ofNat 32 e.val))))))))
    (transpose S2048x8192 [1, 0] (shapeCast S8192x2048 (extractStridedSlice S1x8192x2048 ![e.val, 0, 0] W hsl) shapeCasts_S1x8192x2048_S8192x2048) transposes_S8192x2048_S2048x8192_1_0)

/-- Read at entry (t, f): the inner product over the columns of token `t`'s masked row with row `f` of the expert's
    weights. The mask reaches column `k` of row `t` from entry `t` of the id vector through two broadcasts; the weight
    reaches (k, f) of the transposed matrix from (e, f, k) of the array through the transpose, the reshape that drops the
    slice's unit axis, and the slice. -/
theorem expertProduct_apply (e : Fin 8) (hsl : S8x8192x2048.Slices ![e.val, 0, 0] S1x8192x2048)
    (W : FVec Ideal S8x8192x2048 .f32) (x : FVec Ideal S8192x2048 .f32) (eid : IVec S8192 32) (t f : Fin 8192) :
    expertProduct e hsl W x eid (ix2 t f) = expertTerm x eid W e t f := by
  unfold expertProduct expertTerm
  simp only [Host.dotGeneral]
  rw [Ideal.dotGeneral_apply, ← Equiv.sum_comp (contrEquiv1 dot_S8192x2048_S2048x8192_S8192x8192_1_0_0_1_n_n 2048 rfl rfl).symm]
  refine Finset.sum_congr rfl fun k _ => ?_
  have hk := contrEquiv1_symm_val dot_S8192x2048_S2048x8192_S8192x8192_1_0_0_1_n_n 2048 rfl rfl k
  have el : dot_S8192x2048_S2048x8192_S8192x8192_1_0_0_1_n_n.lhsIdx (ix2 t f) ((contrEquiv1 dot_S8192x2048_S2048x8192_S8192x8192_1_0_0_1_n_n 2048 rfl rfl).symm k) = ix2 t k := funext fun a => Fin.ext (by
    match a with
    | ⟨0, _⟩ => exact lhs_main_v27_0 _ _
    | ⟨1, _⟩ => exact (lhs_main_v27_1 _ _).trans hk)
  have er : dot_S8192x2048_S2048x8192_S8192x8192_1_0_0_1_n_n.rhsIdx (ix2 t f) ((contrEquiv1 dot_S8192x2048_S2048x8192_S8192x8192_1_0_0_1_n_n 2048 rfl rfl).symm k) = ix2 k f := funext fun a => Fin.ext (by
    match a with
    | ⟨0, _⟩ => exact (rhs_main_v27_0 _ _).trans hk
    | ⟨1, _⟩ => exact rhs_main_v27_1 _ _)
  rw [el, er, mulf_apply]
  rw [broadcastInDim_apply _ bcast_S8192x1_S8192x2048_0_1 _ (ix2 t k) (ix2 t (0 : Fin 1)) (fun a => match a with
      | ⟨0, _⟩ => by show t.val = if (8192 : Nat) = 1 then 0 else t.val; rw [if_neg (by decide)]
      | ⟨1, _⟩ => by show 0 = if (1 : Nat) = 1 then 0 else k.val; rw [if_pos rfl]),
    broadcastInDim_apply _ bcast_S8192_S8192x1_0 _ (ix2 t (0 : Fin 1)) (ix1 t) (fun a => match a with
      | ⟨0, _⟩ => by show t.val = if (8192 : Nat) = 1 then 0 else t.val; rw [if_neg (by decide)]),
    transpose_apply [1, 0] _ transposes_S8192x2048_S2048x8192_1_0 (ix2 k f) (ix2 f k) (fun b => match b with
      | ⟨0, _⟩ => rfl
      | ⟨1, _⟩ => rfl),
    shapeCast_apply _ shapeCasts_S1x8192x2048_S8192x2048 (ix2 f k) (ix3 (0 : Fin 1) f k)
      (by rewrite [Shape.rowMajor_val_three, Shape.rowMajor_val_two]
          show (0 * 8192 + f.val) * 2048 + k.val = f.val * 2048 + k.val
          omega),
    extractStridedSlice_apply ![e.val, 0, 0] W hsl (ix3 (0 : Fin 1) f k) (ix3 e f k) (fun a => match a with
      | ⟨0, _⟩ => by show e.val = e.val + 0; omega
      | ⟨1, _⟩ => by show f.val = 0 + f.val; omega
      | ⟨2, _⟩ => by show k.val = 0 + k.val; omega)]
  refine congrArg (· * W (ix3 e f k)) (congrArg (x (ix2 t k) * ·) ?_)
  show FloatOps.uitofp (F := Ideal) .f32 (IntOp.cmpi .eq (eid (ix1 t))
      (broadcastInDim S8192 ![] bcast_S_S8192 (constantI S_ 32 (BitVec.ofNat 32 e.val)) (ix1 t))) = routed (eid (ix1 t)) e.val
  rw [broadcastInDim_apply _ bcast_S_S8192 _ (ix1 t) ix0 (fun a => a.elim0)]
  rfl

/-! ## The eight printed stages are that function at e = 0 … 7 -/

theorem stage0 (x0 : (⟨S8x8192x1024, .i32⟩ : BufTy).Contents (Elt Ideal)) (x1 x2 : (⟨S8x8192, .f32⟩ : BufTy).Contents (Elt Ideal)) (x3 : (⟨S8192x2048, .f32⟩ : BufTy).Contents (Elt Ideal)) (x4 : (⟨S8192, .i32⟩ : BufTy).Contents (Elt Ideal)) :
    val_main_v27 (F := Ideal) x0 x1 x2 x3 x4
      = expertProduct 0 slices_S8x8192x2048_S1x8192x2048_0_0_0 (val_main_v16 (F := Ideal) x0 x1 x2) x3 x4 := rfl
theorem stage1 (x0 : (⟨S8x8192x1024, .i32⟩ : BufTy).Contents (Elt Ideal)) (x1 x2 : (⟨S8x8192, .f32⟩ : BufTy).Contents (Elt Ideal)) (x3 : (⟨S8192x2048, .f32⟩ : BufTy).Contents (Elt Ideal)) (x4 : (⟨S8192, .i32⟩ : BufTy).Contents (Elt Ideal)) :
    val_main_v38 (F := Ideal) x0 x1 x2 x3 x4
      = expertProduct 1 slices_S8x8192x2048_S1x8192x2048_1_0_0 (val_main_v16 (F := Ideal) x0 x1 x2) x3 x4 := rfl
theorem stage2 (x0 : (⟨S8x8192x1024, .i32⟩ : BufTy).Contents (Elt Ideal)) (x1 x2 : (⟨S8x8192, .f32⟩ : BufTy).Contents (Elt Ideal)) (x3 : (⟨S8192x2048, .f32⟩ : BufTy).Contents (Elt Ideal)) (x4 : (⟨S8192, .i32⟩ : BufTy).Contents (Elt Ideal)) :
    val_main_v49 (F := Ideal) x0 x1 x2 x3 x4
      = expertProduct 2 slices_S8x8192x2048_S1x8192x2048_2_0_0 (val_main_v16 (F := Ideal) x0 x1 x2) x3 x4 := rfl
theorem stage3 (x0 : (⟨S8x8192x1024, .i32⟩ : BufTy).Contents (Elt Ideal)) (x1 x2 : (⟨S8x8192, .f32⟩ : BufTy).Contents (Elt Ideal)) (x3 : (⟨S8192x2048, .f32⟩ : BufTy).Contents (Elt Ideal)) (x4 : (⟨S8192, .i32⟩ : BufTy).Contents (Elt Ideal)) :
    val_main_v60 (F := Ideal) x0 x1 x2 x3 x4
      = expertProduct 3 slices_S8x8192x2048_S1x8192x2048_3_0_0 (val_main_v16 (F := Ideal) x0 x1 x2) x3 x4 := rfl
theorem stage4 (x0 : (⟨S8x8192x1024, .i32⟩ : BufTy).Contents (Elt Ideal)) (x1 x2 : (⟨S8x8192, .f32⟩ : BufTy).Contents (Elt Ideal)) (x3 : (⟨S8192x2048, .f32⟩ : BufTy).Contents (Elt Ideal)) (x4 : (⟨S8192, .i32⟩ : BufTy).Contents (Elt Ideal)) :
    val_main_v71 (F := Ideal) x0 x1 x2 x3 x4
      = expertProduct 4 slices_S8x8192x2048_S1x8192x2048_4_0_0 (val_main_v16 (F := Ideal) x0 x1 x2) x3 x4 := rfl
theorem stage5 (x0 : (⟨S8x8192x1024, .i32⟩ : BufTy).Contents (Elt Ideal)) (x1 x2 : (⟨S8x8192, .f32⟩ : BufTy).Contents (Elt Ideal)) (x3 : (⟨S8192x2048, .f32⟩ : BufTy).Contents (Elt Ideal)) (x4 : (⟨S8192, .i32⟩ : BufTy).Contents (Elt Ideal)) :
    val_main_v82 (F := Ideal) x0 x1 x2 x3 x4
      = expertProduct 5 slices_S8x8192x2048_S1x8192x2048_5_0_0 (val_main_v16 (F := Ideal) x0 x1 x2) x3 x4 := rfl
theorem stage6 (x0 : (⟨S8x8192x1024, .i32⟩ : BufTy).Contents (Elt Ideal)) (x1 x2 : (⟨S8x8192, .f32⟩ : BufTy).Contents (Elt Ideal)) (x3 : (⟨S8192x2048, .f32⟩ : BufTy).Contents (Elt Ideal)) (x4 : (⟨S8192, .i32⟩ : BufTy).Contents (Elt Ideal)) :
    val_main_v93 (F := Ideal) x0 x1 x2 x3 x4
      = expertProduct 6 slices_S8x8192x2048_S1x8192x2048_6_0_0 (val_main_v16 (F := Ideal) x0 x1 x2) x3 x4 := rfl
theorem stage7 (x0 : (⟨S8x8192x1024, .i32⟩ : BufTy).Contents (Elt Ideal)) (x1 x2 : (⟨S8x8192, .f32⟩ : BufTy).Contents (Elt Ideal)) (x3 : (⟨S8192x2048, .f32⟩ : BufTy).Contents (Elt Ideal)) (x4 : (⟨S8192, .i32⟩ : BufTy).Contents (Elt Ideal)) :
    val_main_v104 (F := Ideal) x0 x1 x2 x3 x4
      = expertProduct 7 slices_S8x8192x2048_S1x8192x2048_7_0_0 (val_main_v16 (F := Ideal) x0 x1 x2) x3 x4 := rfl

/-! ## The sum of the eight products, from zero -/

/-- The array the sum starts from is zero everywhere. -/
theorem start_zero (i : S8192x8192.Idx) : val_main_v17 (F := Ideal) i = 0 := by
  rw [val_main_v17_apply, val_main_cst_apply]
  exact Ideal.ofBits_zero_f32

/-- THE REFERENCE'S RESULT, as a function of its five live arguments, is the specification's function of the tokens,
    the ids and the dequantised weights: entry by entry, zero plus the eight experts' inner products, added in
    order. -/
theorem result_eq (x0 : (⟨S8x8192x1024, .i32⟩ : BufTy).Contents (Elt Ideal)) (x1 x2 : (⟨S8x8192, .f32⟩ : BufTy).Contents (Elt Ideal)) (x3 : (⟨S8192x2048, .f32⟩ : BufTy).Contents (Elt Ideal)) (x4 : (⟨S8192, .i32⟩ : BufTy).Contents (Elt Ideal)) :
    val_main_v105 (F := Ideal) x0 x1 x2 x3 x4 = moe x3 x4 (val_main_v16 (F := Ideal) x0 x1 x2) := by
  funext i
  obtain ⟨t, f, rfl⟩ : ∃ (t f : Fin 8192), i = ix2 t f := ⟨i 0, i 1, eq_ix2 i⟩
  rw [val_main_v105_apply, val_main_v94_apply, val_main_v83_apply, val_main_v72_apply, val_main_v61_apply,
    val_main_v50_apply, val_main_v39_apply, val_main_v28_apply, start_zero,
    stage0, stage1, stage2, stage3, stage4, stage5, stage6, stage7]
  simp only [expertProduct_apply, Ideal.addf_def]
  unfold moe
  rw [Fin.sum_univ_eight, zero_add]

end Cert.ReferenceIdeal.MoeValue

end
-- ==== Proof.lean ====
/-
  THE CERTIFICATE: a grouped matrix product over eight experts, as a Pallas kernel and as its jnp reference, are one
  function of their arguments on the extended reals.

  Both programs dequantise the packed weights by the same host operations (the array `W`, of eight experts by 8192
  output rows by 2048 input columns; no proof looks inside it). The reference then adds, onto a zero array and in
  order, the eight products `(x · [eid = e]) · W[e]ᵀ`. The kernel walks a grid of 8 token blocks × 8 output blocks ×
  8 experts, the expert fastest: for each (token block, output block) it zeroes a running block at expert 0, adds at
  every expert the product of the masked token block with the expert's weight block, and writes the block back after
  expert 7. Entry (t, f) of either result is
      ∑ over the experts e of ∑ over the columns h of (x t h · [eid t = e]) · W e f h
  (`Cert.Moe.moe`). The law that joins the two sides is only that a sum in a commutative monoid does not depend on how
  it is blocked — no product is distributed or cancelled — so the precondition (finite inputs) is never opened.

  The modules: MoeSpec (the function), MoeStep (the body's arithmetic at an entry), MoeCases (what each control case
  leaves), MoeFold (a run of eight points as a sum; the blocks tile the result), MoeArrays (the arrays the region finds
  are the arguments'), MoeReference (the reference's eight iterations). The kernel's frame, its run with the result
  array named, and the reference's run and its stages are the generated modules imported below.
-/
import proofs.«412443_j61881888801247_1_alg».proof.Defs
import proofs.«412443_j61881888801247_1_alg».proof.Proof.Gen.Kernel
import proofs.«412443_j61881888801247_1_alg».proof.Proof.Gen.Kernel.Skeleton
import proofs.«412443_j61881888801247_1_alg».proof.Proof.Gen.Kernel.Launch
import proofs.«412443_j61881888801247_1_alg».proof.Proof.Gen.Kernel.Points
import proofs.«412443_j61881888801247_1_alg».proof.Proof.Gen.Kernel.Frame
import proofs.«412443_j61881888801247_1_alg».proof.Proof.Gen.KernelIdeal
import proofs.«412443_j61881888801247_1_alg».proof.Proof.Gen.KernelIdeal.Skeleton
import proofs.«412443_j61881888801247_1_alg».proof.Proof.Gen.KernelIdeal.Launch
import proofs.«412443_j61881888801247_1_alg».proof.Proof.Gen.KernelIdeal.Points
import proofs.«412443_j61881888801247_1_alg».proof.Proof.Gen.KernelIdeal.Frame
import proofs.«412443_j61881888801247_1_alg».proof.Proof.Gen.ReferenceIdeal
import proofs.«412443_j61881888801247_1_alg».proof.Proof.Gen.Pre_finite_inputs
import proofs.«412443_j61881888801247_1_alg».proof.Proof.Gen.KernelIdeal.Value
import proofs.«412443_j61881888801247_1_alg».proof.Proof.Gen.ReferenceIdeal.Run
import proofs.«412443_j61881888801247_1_alg».proof.Proof.Gen.ReferenceIdeal.Read
import proofs.«412443_j61881888801247_1_alg».proof.Proof.MoeSpec
import proofs.«412443_j61881888801247_1_alg».proof.Proof.MoeFold
import proofs.«412443_j61881888801247_1_alg».proof.Proof.MoeArrays
import proofs.«412443_j61881888801247_1_alg».proof.Proof.MoeReference
import Idealize.ShloMosaic.Adequacy
import Idealize.ShloMosaic.Init

noncomputable section

namespace Cert.Proof

open Idealize.ShloMosaic Idealize.ShloMosaic.TcCoe Idealize.ShloMosaic.ValueIdx Idealize.SL.Sem Cert.Moe

/-- The kernel's result array as a function of the ARGUMENTS: the specification's function of the tokens, the ids and
    the reference's own dequantised weights. -/
theorem kernel_result (m : (ℓ : Loc Cert.KernelIdeal.nD Cert.KernelIdeal.τ Cert.KernelIdeal.sig) → Buf (Elt Ideal) ℓ) (c : Dev Cert.KernelIdeal.nD) :
    Cert.KernelIdeal.Fold.result m c
      = moe (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (Cert.ReferenceIdeal.Read.val_main_v16 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) := by
  have hx : Cert.KernelIdeal.Fold.xs m c = (m ((c.tc : Thread Cert.KernelIdeal.nD Cert.KernelIdeal.τ).loc Cert.KernelIdeal.main_arg3)) := funext fun i => Cert.KernelIdeal.Arrays.tokens_eq m c i
  have hi : Cert.KernelIdeal.Fold.ids m c = (m ((c.tc : Thread Cert.KernelIdeal.nD Cert.KernelIdeal.τ).loc Cert.KernelIdeal.main_arg4)) := funext fun i =>
    (Cert.KernelIdeal.Arrays.ids_eq m c (i 0)).trans (congrArg (m ((c.tc : Thread Cert.KernelIdeal.nD Cert.KernelIdeal.τ).loc Cert.KernelIdeal.main_arg4)) (eq_ix1 i).symm)
  have hw : Cert.KernelIdeal.Fold.ws m c = Cert.ReferenceIdeal.Read.val_main_v16 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
    funext fun i => Cert.KernelIdeal.Arrays.weights_eq m c i
  show moe (Cert.KernelIdeal.Fold.xs m c) (Cert.KernelIdeal.Fold.ids m c) (Cert.KernelIdeal.Fold.ws m c) = _
  rw [hx, hi, hw]

/-- The word-level kernel runs, faults nowhere, and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation of the kernel. -/
theorem preserves : Cert.preserves_Kernel_KernelIdeal := trivial

/-- From memories that agree on the arguments both programs end with the specification's function of them in their
    result arrays. -/
theorem algebraic : Cert.algebraic_KernelIdeal_ReferenceIdeal := by
  intro m ρ m' ρ' _ hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, -⟩ := hagree c
  show Cert.ReferenceIdeal.Value.res_main_v105 m' c = Cert.KernelIdeal.Fold.result m c
  rw [Cert.ReferenceIdeal.Read.val_main_v105_eq, Cert.ReferenceIdeal.MoeValue.result_eq, kernel_result, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
